-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S128x768 : Shape := ⟨2, ![128, 768]⟩
abbrev S128 : Shape := ⟨1, ![128]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S32768x768 .f32) (main_arg1 : FVec F S128x768 .f32) (main_arg2 : FVec F S128 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S128x768 .f32 := Host.absf main_arg1
  let main_cst_0 : FVec F S_ .f32 := constant S_ .f32 0x7F800000#32
  let main_v5 : FVec F S128x768 .f32 := broadcastInDim S128x768 ![] bcast_S_S128x768 main_cst_0
  let main_v6 : IVec S128x768 1 := cmpf .olt main_v4 main_v5
  let main_c_1 : IVec S_ 1 := constantI S_ 1 1#1
  let main_v7 : IVec S_ 1 := (fun x v => Host.reduce IntOp.andi x v reducesTo_S128x768_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S32768x768 : Shape := ⟨2, ![32768, 768]⟩
abbrev S128x768 : Shape := ⟨2, ![128, 768]⟩
abbrev S128 : Shape := ⟨1, ![128]⟩
abbrev S768x128 : Shape := ⟨2, ![768, 128]⟩
abbrev S1x128 : Shape := ⟨2, ![1, 128]⟩
abbrev S32768x128 : Shape := ⟨2, ![32768, 128]⟩
abbrev S2048x768 : Shape := ⟨2, ![2048, 768]⟩
abbrev S2048x128 : Shape := ⟨2, ![2048, 128]⟩

abbrev nBuf : Space → Nat
  | .hbm => 7
  | .vmem => 6
  | .smem => 0
  | _ => 0

abbrev bufTy : (tb : Table) → Fin (tcTables nBuf tb) → BufTy
  | .hbm, ⟨0, _⟩ => ⟨S32768x768, .f32⟩
  | .hbm, ⟨1, _⟩ => ⟨S128x768, .f32⟩
  | .hbm, ⟨2, _⟩ => ⟨S128, .f32⟩
  | .hbm, ⟨3, _⟩ => ⟨S768x128, .f32⟩
  | .hbm, ⟨4, _⟩ => ⟨S768x128, .bf16⟩
  | .hbm, ⟨5, _⟩ => ⟨S1x128, .f32⟩
  | .hbm, ⟨6, _⟩ => ⟨S32768x128, .f32⟩
  | .local _ .vmem, ⟨0, _⟩ => ⟨S2048x768, .f32⟩
  | .local _ .vmem, ⟨1, _⟩ => ⟨S2048x768, .f32⟩
  | .local _ .vmem, ⟨2, _⟩ => ⟨S768x128, .bf16⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x768_S768x128_1_0 : S128x768.Transposes [1, 0] S768x128
  bitsLt_bf16_f32 : FTy.bits .bf16 < FTy.bits .f32
  shapeCasts_S128_S1x128 : S128.ShapeCasts S1x128
  inb_S2048x768_S2048x768_0_0 : ∀ a, (![0, 0] : Fin 2 → Nat) a + S2048x768.size a ≤ S2048x768.size a
  h_S2048x768 : 0 < S2048x768.numel
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  dot_S2048x768_S768x128_S2048x128_1_0_0_1_n_n_wf : DotDims.WF S2048x768 S768x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S32768x768.size a
  hwx0_0 : ∀ i : grid0.Coords, EltTy.bits .f32 = 32 ∨ (Rect.block (s := S32768x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .bf16 = 32 ∨ (Rect.block (s := S768x128) S768x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S32768x128.size a
  hwx0_3 : ∀ i : grid0.Coords, EltTy.bits .f32 = 32 ∨ (Rect.block (s := S32768x128) S2048x128.size (cc0_transform_3 i) (hinb0_3 i)).WholeWords (EltTy.packing .f32)

variable [Facts₀]

def dot_S2048x768_S768x128_S2048x128_1_0_0_1_n_n : DotDims S2048x768 S768x128 S2048x128 where
  lhsContracting := [1]
  rhsContracting := [0]
  lhsNonContracting := [0]
  rhsNonContracting := [1]
  lhsBatch := []
  rhsBatch := []
  wf := dot_S2048x768_S768x128_S2048x128_1_0_0_1_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x768 : Shape := ⟨2, ![32768, 768]⟩
abbrev S128x768 : Shape := ⟨2, ![128, 768]⟩
abbrev S128 : Shape := ⟨1, ![128]⟩
abbrev S768x128 : Shape := ⟨2, ![768, 128]⟩
abbrev S1x128 : Shape := ⟨2, ![1, 128]⟩
abbrev S32768x128 : Shape := ⟨2, ![32768, 128]⟩
abbrev S2624x768 : Shape := ⟨2, ![2624, 768]⟩
abbrev S2624x128 : Shape := ⟨2, ![2624, 128]⟩

abbrev nBuf : Space → Nat
  | .hbm => 6
  | .vmem => 6
  | .smem => 0
  | _ => 0

abbrev bufTy : (tb : Table) → Fin (tcTables nBuf tb) → BufTy
  | .hbm, ⟨0, _⟩ => ⟨S32768x768, .f32⟩
  | .hbm, ⟨1, _⟩ => ⟨S128x768, .f32⟩
  | .hbm, ⟨2, _⟩ => ⟨S128, .f32⟩
  | .hbm, ⟨3, _⟩ => ⟨S768x128, .f32⟩
  | .hbm, ⟨4, _⟩ => ⟨S1x128, .f32⟩
  | .hbm, ⟨5, _⟩ => ⟨S32768x128, .f32⟩
  | .local _ .vmem, ⟨0, _⟩ => ⟨S2624x768, .f32⟩
  | .local _ .vmem, ⟨1, _⟩ => ⟨S2624x768, .f32⟩
  | .local _ .vmem, ⟨2, _⟩ => ⟨S768x128, .f32⟩
  | .local _ .vmem, ⟨3, _⟩ => ⟨S1x128, .f32⟩
  | .local _ .vmem, ⟨4, _⟩ => ⟨S2624x128, .f32⟩
  | .local _ .vmem, ⟨5, _⟩ => ⟨S2624x128, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2624x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2624x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x768_S768x128_1_0 : S128x768.Transposes [1, 0] S768x128
  shapeCasts_S128_S1x128 : S128.ShapeCasts S1x128
  inb_S2624x768_S2624x768_0_0 : ∀ a, (![0, 0] : Fin 2 → Nat) a + S2624x768.size a ≤ S2624x768.size a
  h_S2624x768 : 0 < S2624x768.numel
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2624x128 : S1x128.Broadcasts S2624x128
  inb_S2624x128_S2624x128_0_0 : ∀ a, (![0, 0] : Fin 2 → Nat) a + S2624x128.size a ≤ S2624x128.size a
  h_S2624x128 : 0 < S2624x128.numel
  dot_S2624x768_S768x128_S2624x128_1_0_0_1_n_n_wf : DotDims.WF S2624x768 S768x128 S2624x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2624x768.size a < S32768x768.size a
  hwx0_0 : ∀ i : grid0.Coords, EltTy.bits .f32 = 32 ∨ (Rect.unit (s := S32768x768) (fun a => cc0_transform_0 i a * S2624x768.size a) (fun a => (Pipeline.Clip.of (cc0_transform_0 i a) (S2624x768.size a) (S32768x768.size a)).extent (S2624x768.size a)) fun a => Pipeline.Clip.inb (Pipeline.Clip.ok_of (hstart0_0 i a))).WholeWords (EltTy.packing .f32)
  hwxs0_0 : ∀ i : grid0.Coords, EltTy.bits .f32 = 32 ∨ (Rect.unit (s := S2624x768) (fun _ => 0) (fun a => (Pipeline.Clip.of (cc0_transform_0 i a) (S2624x768.size a) (S32768x768.size a)).extent (S2624x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2624x128.size a < S32768x128.size a
  hwx0_3 : ∀ i : grid0.Coords, EltTy.bits .f32 = 32 ∨ (Rect.unit (s := S32768x128) (fun a => cc0_transform_3 i a * S2624x128.size a) (fun a => (Pipeline.Clip.of (cc0_transform_3 i a) (S2624x128.size a) (S32768x128.size a)).extent (S2624x128.size a)) fun a => Pipeline.Clip.inb (Pipeline.Clip.ok_of (hstart0_3 i a))).WholeWords (EltTy.packing .f32)
  hwxs0_3 : ∀ i : grid0.Coords, EltTy.bits .f32 = 32 ∨ (Rect.unit (s := S2624x128) (fun _ => 0) (fun a => (Pipeline.Clip.of (cc0_transform_3 i a) (S2624x128.size a) (S32768x128.size a)).extent (S2624x128.size a)) fun a => (Nat.zero_add _).trans_le (Pipeline.Clip.extent_le (Pipeline.Clip.ok_of (hstart0_3 i a)))).WholeWords (EltTy.packing .f32)

variable [Facts₀]

def dot_S2624x768_S768x128_S2624x128_1_0_0_1_n_n : DotDims S2624x768 S768x128 S2624x128 where
  lhsContracting := [1]
  rhsContracting := [0]
  lhsNonContracting := [0]
  rhsNonContracting := [1]
  lhsBatch := []
  rhsBatch := []
  wf := dot_S2624x768_S768x128_S2624x128_1_0_0_1_n_n_wf

abbrev win0_0 : Pipeline.Window sig grid0 :=
  Pipeline.Window.ofSpecClip (Memref.whole main_arg0) S2624x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_call0_v0) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S2624x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.HeadMath.lean ====
/-
  The classification head as mathematics, over the extended reals.

  For a batch `x` of 32768 rows of 768 features, a weight matrix `w` of 128 rows of 768 features and a bias `b` of 128
  entries, the logits are `x · wᵀ + b`: entry `(r, l)` is `∑ₖ x (r, k) · w (l, k) + b l`.

  A block of rows is computed by one matrix product: for `R` rows `X`, the transposed weights `Wt` (768 × 128) and the
  bias laid out as one row `B` (1 × 128), the block product into a zero accumulator plus the bias row repeated down the
  rows has, at `(p, q)`, the entry `∑ₖ X (p, k) · Wt (k, q) + B (0, q)`. Row `p` of the result reads row `p` of `X`
  and no other: whatever the rows past a given one hold, that row's result is the same.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«138802_g2000102687045169_pallasbulk_887_2_alg».proof.Proof.LibPlainDot

noncomputable section

open scoped BigOperators

namespace Cert.HeadMath

open Idealize.ShloMosaic Idealize.ShloMosaic.ValueIdx

/-- The logits `x · wᵀ + b`, entry by entry. -/
def logits (x : (⟨2, ![32768, 768]⟩ : Shape).Idx → EReal) (w : (⟨2, ![128, 768]⟩ : Shape).Idx → EReal)
    (b : (⟨1, ![128]⟩ : Shape).Idx → EReal) : (⟨2, ![32768, 128]⟩ : Shape).Idx → EReal :=
  fun i => (∑ k : Fin 768, x (ix2 (i 0) k) * w (ix2 (i 1) k)) + b (ix1 (i 1))

theorem logits_apply (x : (⟨2, ![32768, 768]⟩ : Shape).Idx → EReal) (w : (⟨2, ![128, 768]⟩ : Shape).Idx → EReal)
    (b : (⟨1, ![128]⟩ : Shape).Idx → EReal) (r : Fin 32768) (l : Fin 128) :
    logits x w b (ix2 r l) = (∑ k : Fin 768, x (ix2 r k) * w (ix2 l k)) + b (ix1 l) := rfl

/-- A block of `R` rows times the transposed weights, plus the bias row repeated down the rows, at `(p, q)`. -/
theorem block_apply {R : Nat} {φ₁ φ₂ : FTy}
    (d : DotDims (⟨2, ![R, 768]⟩ : Shape) (⟨2, ![768, 128]⟩ : Shape) (⟨2, ![R, 128]⟩ : Shape))
    (hlc : d.lhsContracting = [1]) (hrc : d.rhsContracting = [0]) (hln : d.lhsNonContracting = [0])
    (hrn : d.rhsNonContracting = [1]) (hlb : d.lhsBatch = []) (hrb : d.rhsBatch = [])
    (X : FVec Ideal (⟨2, ![R, 768]⟩ : Shape) φ₁) (Wt : FVec Ideal (⟨2, ![768, 128]⟩ : Shape) φ₂)
    (B : FVec Ideal (⟨2, ![1, 128]⟩ : Shape) .f32)
    (h1 : (⟨2, ![768, 128]⟩ : Shape).ShapeCasts ⟨2, ![768, 128]⟩) (h2 : (⟨2, ![1, 128]⟩ : Shape).ShapeCasts ⟨2, ![1, 128]⟩)
    (hb : (⟨2, ![1, 128]⟩ : Shape).Broadcasts ⟨2, ![R, 128]⟩) (p : Fin R) (q : Fin 128) :
    addf (matmul d none X (shapeCast ⟨2, ![768, 128]⟩ Wt h1) (constant ⟨2, ![R, 128]⟩ .f32 0x00000000#32))
        (broadcastTo ⟨2, ![R, 128]⟩ (shapeCast ⟨2, ![1, 128]⟩ B h2) hb) (ix2 p q)
      = (∑ k : Fin 768, X (ix2 p k) * Wt (ix2 k q)) + B (ix2 (0 : Fin 1) q) := by
  rw [addf_apply, shapeCast_self, shapeCast_self, broadcastTo_1b_ab_apply]
  show FloatOps.matmul d none X Wt (constant ⟨2, ![R, 128]⟩ .f32 0x00000000#32) (ix2 p q) + _ = _
  rw [Ideal.matmul_constant_zero_apply]
  exact congrArg (· + B (ix2 (0 : Fin 1) q)) (Cert.LibPlainDot.plain_sum d hlc hrc hln hrn hlb hrb X Wt p q)

end Cert.HeadMath

end
-- ==== Proof.KernelLogits.lean ====
/-
  The kernel's result array is the logits.

  The batch is cut into 16 blocks of 2048 rows. At grid point t the body reads block t of the batch, the transposed
  weights (768 × 128, one block) and the bias laid out as one row (1 × 128, one block), and writes back block t of the
  result: the block product into a zero accumulator plus the bias row repeated down the rows. Entry (p, q) of that
  block is ∑ₖ x (2048·t + p, k) · w (q, k) + b q, which is the logits' entry (2048·t + p, q). The 16 blocks tile the
  32768 rows (row r lies in block r / 2048), so after the last write-back the whole array holds the logits.
-/
import proofs.«138802_g2000102687045169_pallasbulk_887_2_alg».proof.Proof.Gen.KernelIdeal.Value
import proofs.«138802_g2000102687045169_pallasbulk_887_2_alg».proof.Proof.HeadMath
import Idealize.ShloMosaic.Lib.StableHlo.Run

noncomputable section

open scoped BigOperators

namespace Cert.KernelIdeal.Head

open Cert.KernelIdeal Cert.KernelIdeal.Gen
open Idealize.ShloMosaic Idealize.ShloMosaic.TcCoe Idealize.ShloMosaic.ValueIdx
open Idealize.ShloMosaic.StableHlo
open Idealize.SL.Sem
open Idealize.ShloMosaic.Pipeline (Dat)

variable (m : (ℓ : Loc nD τ sig) → Buf (Elt Ideal) ℓ)

/-! ## The arrays the host writes before the region -/

/-- The weights as the region finds them: the weight matrix transposed (rounding is the identity over the
    extended reals). -/
theorem wt_eq (c : Dev nD) :
    (V m c main_call0_v1 : S768x128.Idx → EReal)
      = transpose S768x128 [1, 0] (m ((c : Thread nD τ).loc main_arg1)) transposes_S128x768_S768x128_1_0 := by
  dsimp only [Gen.V, Gen.hostOps0]; after_results; rfl

/-- The bias as the region finds it: the bias vector laid out as one row. -/
theorem brow_eq (c : Dev nD) :
    (V m c main_call0_v2 : S1x128.Idx → EReal)
      = shapeCast S1x128 (m ((c : Thread nD τ).loc main_arg2)) shapeCasts_S128_S1x128 := by
  dsimp only [Gen.V, Gen.hostOps0]; after_results; rfl

/-- Entry (k, q) of the transposed weights is entry (q, k) of the weight matrix. -/
theorem wt_apply (c : Dev nD) (k : Fin 768) (q : Fin 128) :
    (V m c main_call0_v1 : S768x128.Idx → EReal) (ix2 k q) = m ((c : Thread nD τ).loc main_arg1) (ix2 q k) := by
  rw [wt_eq]
  exact transpose_ix2_apply _ _ k q

/-- Entry (0, q) of the bias row is entry q of the bias vector. -/
theorem brow_apply (c : Dev nD) (u : Fin 1) (q : Fin 128) :
    (V m c main_call0_v2 : S1x128.Idx → EReal) (ix2 u q) = m ((c : Thread nD τ).loc main_arg2) (ix1 q) := by
  rw [brow_eq]
  exact shapeCast_a_1a_apply _ _ u q

/-! ## One block of the result -/

theorem hz : (![0, 0] : Fin 2 → Nat) = fun _ => 0 := funext fun a => by fin_cases a <;> rfl

/-- The body's payload at (p, q): row p of the block of rows against column q of the transposed weights, plus
    the bias row's entry q. -/
theorem pay_apply (x0 : Vec Ideal S2048x768 .f32) (x1 : Vec Ideal S768x128 .bf16) (x2 : Vec Ideal S1x128 .f32)
    (p : Fin 2048) (q : Fin 128) :
    k0_pay1 x0 x1 x2 (ix2 p q) = (∑ k : Fin 768, x0 (ix2 p k) * x1 (ix2 k q)) + x2 (ix2 (0 : Fin 1) q) := by
  unfold k0_pay1
  exact Cert.HeadMath.block_apply _ rfl rfl rfl rfl rfl rfl x0 x1 x2 _ _ _ p q

/-- Where the windows' blocks sit at grid point t: the batch's and the result's at block row t, the weights' and
    the bias row's at the one block there is. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t of the batch is row 2048·t + p of the batch. -/
theorem xblk_apply (c : Dev nD) (t : Fin cfg0.N) (p : Fin 2048) (k : Fin 768) (h : t.val * 2048 + p.val < 32768) :
    iblk m c 0 t (ix2 p k) = m ((c : Thread nD τ).loc main_arg0) (ix2 (⟨t.val * 2048 + p.val, h⟩ : Fin 32768) k) := by
  obtain ⟨e0, e1, -⟩ := idx_facts t
  show V m c main_arg0 (((cfg0.win 0).blk t).view.emb (ix2 p k)) = _
  rw [V_main_arg0]
  refine congrArg _ ?_
  funext a; apply Fin.ext
  match a with
  | ⟨0, _⟩ => show win0_0.index t (0 : Fin 2) * 2048 + 1 * p.val = t.val * 2048 + p.val; omega
  | ⟨1, _⟩ => show win0_0.index t (1 : Fin 2) * 768 + 1 * k.val = k.val; omega

/-- The weights' one block is the transposed weights. -/
theorem wblk_apply (c : Dev nD) (t : Fin cfg0.N) (k : Fin 768) (q : Fin 128) :
    iblk m c 1 t (ix2 k q) = m ((c : Thread nD τ).loc main_arg1) (ix2 q k) := by
  obtain ⟨-, -, e2, e3, -⟩ := idx_facts t
  refine Eq.trans ?_ (wt_apply m c k q)
  show V m c main_call0_v1 (((cfg0.win 1).blk t).view.emb (ix2 k q)) = V m c main_call0_v1 (ix2 k q)
  refine congrArg _ ?_
  funext a; apply Fin.ext
  match a with
  | ⟨0, _⟩ => show win0_1.index t (0 : Fin 2) * 768 + 1 * k.val = k.val; omega
  | ⟨1, _⟩ => show win0_1.index t (1 : Fin 2) * 128 + 1 * q.val = q.val; omega

/-- The bias row's one block is the bias row. -/
theorem bblk_apply (c : Dev nD) (t : Fin cfg0.N) (u : Fin 1) (q : Fin 128) :
    iblk m c 2 t (ix2 u q) = m ((c : Thread nD τ).loc main_arg2) (ix1 q) := by
  obtain ⟨-, -, -, -, e4, e5, -⟩ := idx_facts t
  refine Eq.trans ?_ (brow_apply m c u q)
  show V m c main_call0_v2 (((cfg0.win 2).blk t).view.emb (ix2 u q)) = V m c main_call0_v2 (ix2 u q)
  refine congrArg _ ?_
  funext a; apply Fin.ext
  match a with
  | ⟨0, _⟩ => show win0_2.index t (0 : Fin 2) * 1 + 1 * u.val = u.val; omega
  | ⟨1, _⟩ => show win0_2.index t (1 : Fin 2) * 128 + 1 * q.val = q.val; omega

/-- What point t writes back is block t of the logits of the argument arrays. -/
theorem flushed_eq (c : Dev nD) (t : Fin cfg0.N) :
    (dats m 0 c).flushed 3 t = ((cfg0.win 3).blk t).view.read (Elt Ideal)
      (Cert.HeadMath.logits (m ((c : Thread nD τ).loc main_arg0)) (m ((c : Thread nD τ).loc main_arg1))
        (m ((c : Thread nD τ).loc main_arg2))) := by
  rw [Value.flushed3]
  unfold out0_3
  rw [View.canon_unit_zero hz]
  simp only [View.ld_unit_zero (S := S2048x768) hz, View.ld_unit_zero (S := S768x128) hz, View.ld_unit_zero (S := S1x128) hz]
  obtain ⟨-, -, -, -, -, -, e6, e7⟩ := idx_facts t
  have hN : cfg0.N = 16 := Gen.N_0
  have ht : t.val < 16 := hN ▸ t.isLt
  funext j
  have hp : (j 0).val < 2048 := (j 0).isLt
  have hq : (j 1).val < 128 := (j 1).isLt
  have hr : t.val * 2048 + (j 0).val < 32768 := by omega
  have ej : (cfg0.win 3).xinj (grid0.coords t) j = ix2 (⟨(j 0).val, hp⟩ : Fin 2048) (⟨(j 1).val, hq⟩ : Fin 128) := by
    funext a
    match a with
    | ⟨0, _⟩ => rfl
    | ⟨1, _⟩ => rfl
  have ee : ((cfg0.win 3).blk t).view.emb j = ix2 (⟨t.val * 2048 + (j 0).val, hr⟩ : Fin 32768) (⟨(j 1).val, hq⟩ : Fin 128) := by
    funext a; apply Fin.ext
    match a with
    | ⟨0, _⟩ => show win0_3.index t (0 : Fin 2) * 2048 + 1 * (j 0).val = t.val * 2048 + (j 0).val; omega
    | ⟨1, _⟩ => show win0_3.index t (1 : Fin 2) * 128 + 1 * (j 1).val = (j 1).val; omega
  show k0_pay1 (iblk m c 0 t) (iblk m c 1 t) (iblk m c 2 t) ((cfg0.win 3).xinj (grid0.coords t) j)
    = Cert.HeadMath.logits _ _ _ (((cfg0.win 3).blk t).view.emb j)
  rw [ej, ee, pay_apply, Cert.HeadMath.logits_apply, bblk_apply]
  refine congrArg (· + _) (Finset.sum_congr rfl fun k _ => ?_)
  rw [xblk_apply m c t ⟨(j 0).val, hp⟩ k hr, wblk_apply]

/-! ## The blocks tile the result -/

/-- An index of the result is in point t's block iff each coordinate is in the block's range on its axis. -/
theorem mem_blk (t : Fin cfg0.N) (i : S32768x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v0).slice (win0_3.rect t)).set ↔ _
  rw [View.set_slice_whole, Rect.mem_set_unit]
  exact Iff.rfl

/-- Row r of the result lies in block r / 2048. -/
theorem cover (i : S32768x128.Idx) :
    ∃ t : Fin cfg0.N, (cfg0.win 3).flush t = true ∧ i ∈ ((cfg0.win 3).blk t).view.set := by
  have hi0 : (i 0).val < 32768 := (i 0).isLt
  have hi1 : (i 1).val < 128 := (i 1).isLt
  have hN : cfg0.N = 16 := Gen.N_0
  have hlt : (i 0).val / 2048 < cfg0.N := by rw [hN]; omega
  obtain ⟨-, -, -, -, -, -, e6, e7⟩ := idx_facts ⟨(i 0).val / 2048, hlt⟩
  refine ⟨⟨(i 0).val / 2048, hlt⟩, flush0_3 _, ?_⟩
  rw [mem_blk]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    rw [e6]
    show (i 0).val / 2048 * 2048 ≤ (i 0).val ∧ (i 0).val < (i 0).val / 2048 * 2048 + 2048
    omega
  | ⟨1, _⟩ =>
    show win0_3.index ⟨(i 0).val / 2048, hlt⟩ (1 : Fin 2) * 128 ≤ (i 1).val
      ∧ (i 1).val < win0_3.index ⟨(i 0).val / 2048, hlt⟩ (1 : Fin 2) * 128 + 128
    rw [e7]
    omega

/-! ## The result array -/

/-- After the last write-back the result array holds the logits of the argument arrays. -/
theorem final3 (c : Dev nD) :
    (dats m 0 c).arrAt 3 cfg0.N
      = Cert.HeadMath.logits (m ((c : Thread nD τ).loc main_arg0)) (m ((c : Thread nD τ).loc main_arg1))
          (m ((c : Thread nD τ).loc main_arg2)) :=
  (dats m 0 c).arrAt_eq_of_cover 3 _ (fun t _ => flushed_eq m c t) cover

end Cert.KernelIdeal.Head

end
-- ==== Proof.RefData.lean ====
/-
  The reference's pipeline, point by point: what each staging buffer holds after the body.

  The reference tiles the 32768 rows in 13 blocks of 2624 rows; the last block starts at row 31488 and overhangs the
  array by 1344 rows, so its transfers are cut to the 1280 rows inside the array. At point `t` the rows buffer holds
  the block's rows that lie inside the array (`rowsAt`: past the array's end we name them zero; nothing reads them),
  the weights buffer the transposed weights, the bias buffer the bias row, and the body leaves in the result's buffer
  the block product plus bias of those (`logitRowsAt`). Of the result's buffer only the rows inside the array are
  written back.
-/
import proofs.«138802_g2000102687045169_pallasbulk_887_2_alg».proof.Proof.Gen.ReferenceIdeal.Frame
import proofs.«138802_g2000102687045169_pallasbulk_887_2_alg».proof.Proof.Gen.ReferenceIdeal.Skeleton
import proofs.«138802_g2000102687045169_pallasbulk_887_2_alg».proof.Proof.HeadMath
import Idealize.ShloMosaic.Lib.StableHlo.Run

noncomputable section

namespace Cert.ReferenceIdeal.Head

open Cert.ReferenceIdeal Cert.ReferenceIdeal.Gen
open Idealize.ShloMosaic Idealize.ShloMosaic.TcCoe Idealize.ShloMosaic.ValueIdx
open scoped BigOperators
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable (m : (ℓ : Loc nD τ sig) → Buf (Elt Ideal) ℓ) (ρ : Dev nD → PrngReg)

/-- The rows of block `t`: inside the array the batch's rows `2624·t + p`, zero past its end. -/
def rowsAt (c : Dev nD) (t : Fin cfg0.N) : Vec Ideal S2624x768 .f32 :=
  win0_0.fill (grid0.coords t) (fun _ => (0 : EReal)) (iblk m c 0 t)

/-- Their logits: the block product with the transposed weights plus the bias row. -/
def logitRowsAt (c : Dev nD) (t : Fin cfg0.N) : Vec Ideal S2624x128 .f32 :=
  k0_pay1 (F := Ideal) (rowsAt m c t) (iblk m c 1 t) (iblk m c 2 t)

/-- The pipeline's proof data on core `c`: the arrays as the region finds them; after the body at point `t` the rows
    buffer at `rowsAt`, the weights and bias buffers at their (whole) blocks, the result's at `logitRowsAt`. -/
def dats (_ : Fin 1) (c : Dev nD) : Dat τ (Elt Ideal) Unit ℕ (UR sig nD τ) ℕ cfg0 c where
  A w := V m c (Pipeline.arrRef spec0 w)
  after w t := match w with
    | ⟨0, _⟩ => rowsAt m c t
    | ⟨1, _⟩ => iblk m c 1 t
    | ⟨2, _⟩ => iblk m c 2 t
    | ⟨3, _⟩ => logitRowsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = rowsAt m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = logitRowsAt m c t := by dsimp only [dats]

/-- The cut sizes and block indices, point by point: the rows window and the result's window are cut alike on the row
    axis (2624 rows, 1280 at the last point) and not at all on the other; block `t` starts at row `2624·t`. -/
theorem cut_facts : ∀ t : Fin cfg0.N,
    win0_0.xsize (grid0.coords t) 0 = win0_3.xsize (grid0.coords t) 0
    ∧ win0_0.xsize (grid0.coords t) 1 = 768
    ∧ win0_3.xsize (grid0.coords t) 1 = 128
    ∧ win0_3.xsize (grid0.coords t) 0 = min 2624 (32768 - 2624 * t.val)
    ∧ win0_0.index t 0 = t.val ∧ win0_0.index t 1 = 0
    ∧ win0_3.index t 0 = t.val ∧ win0_3.index t 1 = 0 :=
  (by decide +kernel : ∀ t : Fin grid0.N, _)

/-! ## The transposed weights and the bias row, as the region finds them -/

theorem wt_eq (c : Dev nD) : (V m c main_call0_v0 : S768x128.Idx → EReal)
    = transpose S768x128 [1, 0] (m ((c : Thread nD τ).loc main_arg1)) transposes_S128x768_S768x128_1_0 := by
  dsimp only [Gen.V, Gen.hostOps0]; after_results; rfl

theorem brow_eq (c : Dev nD) : (V m c main_call0_v1 : S1x128.Idx → EReal)
    = shapeCast S1x128 (m ((c : Thread nD τ).loc main_arg2)) shapeCasts_S128_S1x128 := by
  dsimp only [Gen.V, Gen.hostOps0]; after_results; rfl

/-- The transposed weights at `(k, q)` are the weights at `(q, k)`. -/
theorem wt_apply (c : Dev nD) (k : Fin 768) (q : Fin 128) :
    (V m c main_call0_v0 : S768x128.Idx → EReal) (ix2 k q) = m ((c : Thread nD τ).loc main_arg1) (ix2 q k) := by
  rw [wt_eq]; exact transpose_ix2_apply _ _ k q

/-- The bias row at `(0, q)` is the bias at `q`. -/
theorem brow_apply (c : Dev nD) (u : Fin 1) (q : Fin 128) :
    (V m c main_call0_v1 : S1x128.Idx → EReal) (ix2 u q) = m ((c : Thread nD τ).loc main_arg2) (ix1 q) := by
  rw [brow_eq]; exact shapeCast_a_1a_apply _ _ u q

/-! ## The body's arithmetic, and a cut fetch, at an index -/

/-- The block product plus bias at `(p, q)`: row `p` of the rows against column `q` of the transposed weights. -/
theorem pay_apply (X : Vec Ideal S2624x768 .f32) (Wt : Vec Ideal S768x128 .f32) (B : Vec Ideal S1x128 .f32)
    (p : Fin 2624) (q : Fin 128) :
    k0_pay1 (F := Ideal) X Wt B (ix2 p q) = (∑ k : Fin 768, X (ix2 p k) * Wt (ix2 k q)) + B (ix2 (0 : Fin 1) q) := by
  unfold k0_pay1
  exact Cert.HeadMath.block_apply _ rfl rfl rfl rfl rfl rfl X Wt B _ _ _ p q

/-- A row inside the cut: its entries are moved by the rows window's transfer at that point. -/
theorem rows_moved (t : Fin cfg0.N) (p : Fin 2624) (k : Fin 768) (hp : p.val < win0_3.xsize (grid0.coords t) 0) :
    ∀ a, (ix2 p k a).val < win0_0.xsize (grid0.coords t) a := by
  obtain ⟨e0, e1, -⟩ := cut_facts t
  intro a
  match a with
  | ⟨0, _⟩ => show p.val < win0_0.xsize (grid0.coords t) 0; omega
  | ⟨1, _⟩ => show k.val < win0_0.xsize (grid0.coords t) 1; have := k.isLt; omega

/-- An entry of the rows buffer that the cut fetch moves is the fetched block's, whatever the buffer held before. -/
theorem fill_rows_apply (t : Fin cfg0.N) (d : S2624x768.Idx → EReal) (g : (win0_0.xblock (grid0.coords t)).Idx → EReal)
    (p : Fin 2624) (k : Fin 768) (hp : p.val < win0_3.xsize (grid0.coords t) 0) :
    win0_0.fill (grid0.coords t) d g (ix2 p k) = g (fun a => ⟨(ix2 p k a).val, rows_moved t p k hp a⟩) := by
  have hm : win0_0.moved (grid0.coords t) (ix2 p k) = true :=
    (Pipeline.Window.moved_iff _ _ _).mpr (rows_moved t p k hp)
  unfold Pipeline.Window.fill
  rw [dif_pos hm]

end Cert.ReferenceIdeal.Head

end
-- ==== Proof.RefFrame.lean ====
/-
  The reference's pipeline runs: the body at every point, and the launch.

  The body loads its four staging buffers whole and stores one payload whole: the block product of the rows buffer with
  the weights buffer plus the bias row. So whatever the rows buffer holds, the result's buffer ends holding the block
  product of that. At point `t` the rows buffer holds the block's rows inside the array and, past the array's end
  (only at the last point), words nothing names; the block product is computed row by row, row `p` of the result reading
  row `p` of the rows buffer and no other, so on the rows inside the array the result's buffer holds the logits of the
  array's rows whatever the tail holds. That is all the obligation asks of the two windows that are cut at the array's
  end; the weights and bias buffers are whole blocks and come back as found.
-/
import proofs.«138802_g2000102687045169_pallasbulk_887_2_alg».proof.Proof.RefData

set_option maxRecDepth 16384

noncomputable section

namespace Cert.ReferenceIdeal.Head

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The body's triple -/

/-- The whole-buffer rectangles the body loads and stores through: zero offsets, the buffers' own sizes. -/
abbrev r0 : Rect S2624x768 := Rect.unit (s := S2624x768) ![0, 0] S2624x768.size inb_S2624x768_S2624x768_0_0
abbrev r1 : Rect S768x128 := Rect.unit (s := S768x128) ![0, 0] S768x128.size inb_S768x128_S768x128_0_0
abbrev r2 : Rect S1x128 := Rect.unit (s := S1x128) ![0, 0] S1x128.size inb_S1x128_S1x128_0_0
abbrev r3 : Rect S2624x128 := Rect.unit (s := S2624x128) ![0, 0] S2624x128.size inb_S2624x128_S2624x128_0_0

theorem zeros2 : (![0, 0] : Fin 2 → Nat) = fun _ => 0 := funext fun a => by fin_cases a <;> rfl

/-- What the one store leaves in the result's buffer, as the piece it writes over the loads' rectangles. -/
def out3 (x0 : Vec Ideal S2624x768 .f32) (x1 : Vec Ideal S768x128 .f32) (x2 : Vec Ideal S1x128 .f32) : Vec Ideal S2624x128 .f32 :=
  View.canon [⟨r3, k0_pay1 (F := Ideal) (View.ld x0 r0) (View.ld x1 r1) (View.ld x2 r2)⟩]

/-- The rectangles are the whole buffers: a load reads the contents and the one store leaves its payload. -/
theorem out3_eq (x0 : Vec Ideal S2624x768 .f32) (x1 : Vec Ideal S768x128 .f32) (x2 : Vec Ideal S1x128 .f32) :
    out3 x0 x1 x2 = k0_pay1 (F := Ideal) x0 x1 x2 := by
  unfold out3
  rw [View.canon_unit_zero zeros2, View.ld_unit_zero (S := S2624x768) zeros2, View.ld_unit_zero (S := S768x128) zeros2,
    View.ld_unit_zero (S := S1x128) zeros2]

/-- The store's rectangle covers the result's buffer. -/
theorem cover3 (p0 : Vec Ideal S2624x128 .f32) (y : S2624x128.Idx) :
    ∃ pc ∈ ([⟨r3, p0⟩] : List (View.Piece (Elt Ideal) S2624x128 .f32)), y ∈ pc.1.set :=
  ⟨_, List.mem_singleton_self _, View.mem_set_unit_zero zeros2 inb_S2624x128_S2624x128_0_0 y⟩

set_option maxHeartbeats 1000000 in
/-- The body on whole staging memrefs, the three inputs' at contents `x0`, `x1`, `x2` and the result's at anything, runs
    to the continuation holding the inputs' as they were and the result's at the block product of `x0` with `x1` plus
    the row `x2`. -/
theorem sound_kernel (c : Dev nD) (E : Set ℕ) (i : grid0.Coords) (arg1 : Memref sig .tc .vmem S2624x768 .f32) (harg1 : arg1.IsWhole)
    (arg2 : Memref sig .tc .vmem S768x128 .f32) (harg2 : arg2.IsWhole) (arg3 : Memref sig .tc .vmem S1x128 .f32) (harg3 : arg3.IsWhole)
    (arg4 : Memref sig .tc .vmem S2624x128 .f32) (harg4 : arg4.IsWhole)
    (x0 : Vec Ideal S2624x768 .f32) (x1 : Vec Ideal S768x128 .f32) (x2 : Vec Ideal S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 (F := Ideal) x0 x1 x2)) -∗ K ⟨⟩))
      ⊢ wp frame (wpE (defs₀ (F := Ideal)) Variants.none c none) E (cc0__head_kernel_eval i arg1 harg1 arg2 harg2 arg3 harg3 arg4 harg4) K := by
  rw [← out3_eq]
  simp only [cc0__head_kernel_eval_eq_skeleton]; unfold cc0__head_kernel_eval_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## What the body finds -/

/-- The rows window is fetched at every point: its buffer holds the block's rows inside the array and, past the
    array's end, whatever it held (`d`); -/
theorem before_0 (c : Dev nD) (t : Fin cfg0.N) (d) :
    (dats m 0 c).before 0 t d = win0_0.fill (grid0.coords t) d (iblk m c 0 t) := by
  unfold Dat.before; rw [if_pos (fetch0_0 t)]; rfl
/-- the weights' and the bias's buffers hold their whole blocks, fetched at this point or kept from the first. -/
theorem before_1 (c : Dev nD) (t : Fin cfg0.N) (d) : (dats m 0 c).before 1 t d = iblk m c 1 t :=
  before0_1_of m (dats m 0 c) (A_eq m c 1) (after0_1 m c) t d
theorem before_2 (c : Dev nD) (t : Fin cfg0.N) (d) : (dats m 0 c).before 2 t d = iblk m c 2 t :=
  before0_2_of m (dats m 0 c) (A_eq m c 2) (after0_2 m c) t d

/-! ## Row locality -/

/-- On the rows inside the array the block product does not see what the rows buffer holds past the array's end:
    entry `(p, q)` of the product reads row `p` of the rows buffer only, and a row inside the cut is the fetched
    block's row whatever the buffer held before the fetch. -/
theorem row_local (c : Dev nD) (t : Fin cfg0.N) (d : S2624x768.Idx → EReal) :
    win0_3.cut (grid0.coords t)
        (k0_pay1 (F := Ideal) (win0_0.fill (grid0.coords t) d (iblk m c 0 t)) (iblk m c 1 t) (iblk m c 2 t))
      = win0_3.cut (grid0.coords t) (logitRowsAt m c t) := by
  funext j
  obtain ⟨p, q, hpq⟩ : ∃ (p : Fin 2624) (q : Fin 128), win0_3.xinj (grid0.coords t) j = ix2 p q := ⟨_, _, eq_ix2 _⟩
  have hp : p.val < win0_3.xsize (grid0.coords t) 0 := by
    have h0 : (j 0).val = p.val := congrArg Fin.val (congrFun hpq 0)
    rw [← h0]; exact (j 0).isLt
  show k0_pay1 (F := Ideal) _ _ _ (win0_3.xinj (grid0.coords t) j) = logitRowsAt m c t (win0_3.xinj (grid0.coords t) j)
  rw [hpq]; unfold logitRowsAt rowsAt
  rw [pay_apply, pay_apply]
  refine congrArg (· + _) (Finset.sum_congr rfl fun k _ => ?_)
  rw [fill_rows_apply t _ _ p k hp, fill_rows_apply t _ _ p k hp]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the two windows cut at the array's end stated on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        (win0_3.fill (grid0.coords t) d (win0_3.cut (grid0.coords t) ((dats m 0 c).after 3 t)))))

/-- The body at any point: the inputs' memrefs hold what `before_W` says, so the body's triple applies; the rows buffer
    comes back as found, which on the rows inside the array is `rowsAt`; the result's buffer holds the block product of
    what the rows buffer held, which on the rows inside the array is `logitRowsAt` (`row_local`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (win0_0.fill (grid0.coords t) d0 (iblk m c 0 t))
    (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win0_0.cut (grid0.coords t) (rowsAt m c t) = iblk m c 0 t from win0_0.cut_fill _ _ _]
    iexact H0
  isplitl [H1]; · iexact H1
  isplitl [H2]; · iexact H2
  iexists k0_pay1 (F := Ideal) (win0_0.fill (grid0.coords t) d0 (iblk m c 0 t)) (iblk m c 1 t) (iblk m c 2 t)
  rw [win0_3.fill_congr_cut _ (row_local m c t d0)]
  iexact H3

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the reference terminates, every array of the pipeline ending at what the proof data
    computes and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

end Cert.ReferenceIdeal.Head

end
-- ==== Proof.RefLogits.lean ====
/-
  The reference's result array is the logits.

  Point `t` of the reference's pipeline writes back the rows `2624·t + p` of its result block that lie inside the
  array. Such a row of the block is the product of row `2624·t + p` of the batch with the transposed weights, plus the
  bias row: entry `(2624·t + p, q)` of the logits. Every row `r` of the array lies in the cut block of point
  `r / 2624`, so after the last write-back the array holds the logits everywhere.
-/
import proofs.«138802_g2000102687045169_pallasbulk_887_2_alg».proof.Proof.RefData

noncomputable section

namespace Cert.ReferenceIdeal.Head

open Cert.ReferenceIdeal Cert.ReferenceIdeal.Gen
open Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ)

/-! ## The three input blocks at an index -/

/-- An entry `(p, k)` of the rows block at point `t`, `p` inside the cut, is the batch's entry `(2624·t + p, k)`. -/
theorem rowsAt_apply (c : Dev nD) (t : Fin cfg0.N) (p : Fin 2624) (k : Fin 768)
    (hp : p.val < win0_3.xsize (grid0.coords t) 0) (r : Fin 32768) (hr : r.val = 2624 * t.val + p.val) :
    rowsAt m c t (ix2 p k) = m ((c : Thread nD τ).loc main_arg0) (ix2 r k) := by
  unfold rowsAt
  rw [fill_rows_apply t _ _ p k hp, ← V_main_arg0 m c]
  show V m c main_arg0 (((cfg0.win 0).blk t).view.emb _) = V m c main_arg0 (ix2 r k)
  refine congrArg _ ?_
  obtain ⟨-, -, -, -, i0, i1, -, -⟩ := cut_facts t
  funext a; apply Fin.ext
  match a with
  | ⟨0, _⟩ => show win0_0.index t (0 : Fin 2) * 2624 + 1 * p.val = r.val; rw [i0]; omega
  | ⟨1, _⟩ => show win0_0.index t (1 : Fin 2) * 768 + 1 * k.val = k.val; rw [i1]; omega

/-- The weights block at any point is the transposed weights: entry `(k, q)` is the weights' entry `(q, k)`. -/
theorem wblk_apply (c : Dev nD) (t : Fin cfg0.N) (k : Fin 768) (q : Fin 128) :
    (iblk m c 1 t : S768x128.Idx → EReal) (ix2 k q) = m ((c : Thread nD τ).loc main_arg1) (ix2 q k) := by
  rw [← wt_apply m c k q]
  show V m c main_call0_v0 (((cfg0.win 1).blk t).view.emb (ix2 k q)) = V m c main_call0_v0 (ix2 k q)
  refine congrArg _ ?_
  funext a; apply Fin.ext
  match a with
  | ⟨0, _⟩ => show 0 * 768 + 1 * k.val = k.val; omega
  | ⟨1, _⟩ => show 0 * 128 + 1 * q.val = q.val; omega

/-- The bias block at any point is the bias row: entry `(0, q)` is the bias' entry `q`. -/
theorem bblk_apply (c : Dev nD) (t : Fin cfg0.N) (q : Fin 128) :
    (iblk m c 2 t : S1x128.Idx → EReal) (ix2 (0 : Fin 1) q) = m ((c : Thread nD τ).loc main_arg2) (ix1 q) := by
  rw [← brow_apply m c 0 q]
  show V m c main_call0_v1 (((cfg0.win 2).blk t).view.emb (ix2 (0 : Fin 1) q)) = V m c main_call0_v1 (ix2 (0 : Fin 1) q)
  refine congrArg _ ?_
  funext a; apply Fin.ext
  match a with
  | ⟨0, _⟩ => show 0 * 1 + 1 * 0 = 0; rfl
  | ⟨1, _⟩ => show 0 * 128 + 1 * q.val = q.val; omega

/-! ## The result block at an index -/

/-- An entry `(p, q)` of the result block at point `t`, `p` inside the cut, is the logits' entry `(2624·t + p, q)`. -/
theorem logitRowsAt_apply (c : Dev nD) (t : Fin cfg0.N) (p : Fin 2624) (q : Fin 128)
    (hp : p.val < win0_3.xsize (grid0.coords t) 0) (r : Fin 32768) (hr : r.val = 2624 * t.val + p.val) :
    logitRowsAt m c t (ix2 p q)
      = Cert.HeadMath.logits (m ((c : Thread nD τ).loc main_arg0)) (m ((c : Thread nD τ).loc main_arg1))
          (m ((c : Thread nD τ).loc main_arg2)) (ix2 r q) := by
  unfold logitRowsAt
  rw [pay_apply, Cert.HeadMath.logits_apply, bblk_apply m c t q]
  refine congrArg (· + _) (Finset.sum_congr rfl fun k _ => ?_)
  rw [rowsAt_apply m c t p k hp r hr, wblk_apply m c t k q]

/-! ## What each point writes back, and the array after the run -/

/-- What point `t` writes back is its cut block of the logits. -/
theorem flushed_eq (c : Dev nD) (t : Fin cfg0.N) :
    (dats m 0 c).flushed 3 t
      = ((cfg0.win 3).blk t).view.read (Elt Ideal)
          (Cert.HeadMath.logits (m ((c : Thread nD τ).loc main_arg0)) (m ((c : Thread nD τ).loc main_arg1))
            (m ((c : Thread nD τ).loc main_arg2))) := by
  show (cfg0.win 3).cut (grid0.coords t) ((dats m 0 c).after 3 t) = _
  rw [after0_3]
  funext j
  obtain ⟨-, -, f2, f3, -, -, i3, i4⟩ := cut_facts t
  have hj0 : (j 0).val < win0_3.xsize (grid0.coords t) 0 := (j 0).isLt
  have hj1 : (j 1).val < win0_3.xsize (grid0.coords t) 1 := (j 1).isLt
  have ht : t.val < 13 := t.isLt.trans_eq N_0
  have hp : (j 0).val < 2624 := by rw [f3] at hj0; omega
  have hq : (j 1).val < 128 := by rw [f2] at hj1; exact hj1
  have hr : 2624 * t.val + (j 0).val < 32768 := by rw [f3] at hj0; omega
  have hx : win0_3.xinj (grid0.coords t) j = ix2 (⟨(j 0).val, hp⟩ : Fin 2624) (⟨(j 1).val, hq⟩ : Fin 128) := by
    funext a
    match a with
    | ⟨0, _⟩ => rfl
    | ⟨1, _⟩ => rfl
  show logitRowsAt m c t (win0_3.xinj (grid0.coords t) j)
      = Cert.HeadMath.logits _ _ _ (((cfg0.win 3).blk t).view.emb j)
  rw [hx, logitRowsAt_apply m c t ⟨(j 0).val, hp⟩ ⟨(j 1).val, hq⟩ hj0 ⟨2624 * t.val + (j 0).val, hr⟩ rfl]
  refine congrArg _ ?_
  funext a; apply Fin.ext
  match a with
  | ⟨0, _⟩ => show 2624 * t.val + (j 0).val = win0_3.index t (0 : Fin 2) * 2624 + 1 * (j 0).val; rw [i3]; omega
  | ⟨1, _⟩ => show (j 1).val = win0_3.index t (1 : Fin 2) * 128 + 1 * (j 1).val; rw [i4]; omega

/-- An entry of the result array is in point `t`'s cut block iff each coordinate is in the block's range on its axis. -/
theorem mem_blk3 (t : Fin cfg0.N) (i : S32768x128.Idx) :
    i ∈ ((cfg0.win 3).blk t).view.set
      ↔ ∀ a : Fin 2, win0_3.index t a * S2624x128.size a ≤ (i a).val
          ∧ (i a).val < win0_3.index t a * S2624x128.size a + win0_3.xsize (grid0.coords t) a := by
  show i ∈ ((View.whole main_v0).slice (win0_3.rect t)).set ↔ _
  rw [View.set_slice_whole, Rect.mem_set_unit]
  exact Iff.rfl

/-- Every entry of the result array is in the cut block of the point its row falls in. -/
theorem row_covered (i : S32768x128.Idx) :
    ∃ t : Fin cfg0.N, (cfg0.win 3).flush t = true ∧ i ∈ ((cfg0.win 3).blk t).view.set := by
  have hi0 : (i 0).val < 32768 := (i 0).isLt
  have hi1 : (i 1).val < 128 := (i 1).isLt
  have hN : cfg0.N = 13 := N_0
  refine ⟨⟨(i 0).val / 2624, by rw [hN]; omega⟩, flush0_3 _, ?_⟩
  rw [mem_blk3]
  obtain ⟨-, -, f2, f3, -, -, i3, i4⟩ := cut_facts ⟨(i 0).val / 2624, by rw [hN]; omega⟩
  intro a
  match a with
  | ⟨0, _⟩ =>
    show win0_3.index _ (0 : Fin 2) * 2624 ≤ (i 0).val ∧ (i 0).val < win0_3.index _ (0 : Fin 2) * 2624 + win0_3.xsize _ 0
    rw [i3, f3]
    show (i 0).val / 2624 * 2624 ≤ (i 0).val ∧ (i 0).val < (i 0).val / 2624 * 2624 + min 2624 (32768 - 2624 * ((i 0).val / 2624))
    omega
  | ⟨1, _⟩ =>
    show win0_3.index _ (1 : Fin 2) * 128 ≤ (i 1).val ∧ (i 1).val < win0_3.index _ (1 : Fin 2) * 128 + win0_3.xsize _ 1
    rw [i4, f2]
    omega

/-- After the last write-back the result array holds the logits of the argument arrays. -/
theorem final3 (c : Dev nD) :
    (dats m 0 c).arrAt 3 cfg0.N
      = Cert.HeadMath.logits (m ((c : Thread nD τ).loc main_arg0)) (m ((c : Thread nD τ).loc main_arg1))
          (m ((c : Thread nD τ).loc main_arg2)) :=
  (dats m 0 c).arrAt_eq_of_cover 3 _ (fun t _ => flushed_eq m c t) row_covered

end Cert.ReferenceIdeal.Head

end
-- ==== Proof.lean ====
/-
  The classification head `logits = x · wᵀ + b` (x : 32768 × 768, w : 128 × 768, b : 128), computed by a kernel that
  tiles the rows in 16 blocks of 2048 and rounds its operands to bf16 before the product, against a reference that is
  itself a pipelined kernel tiling the rows in 13 blocks of 2624, the last one cut at the array's end.

  Over the extended reals a change of float format is the identity, so both programs leave in the result array, at
  `(r, l)`, the sum `∑ₖ x (r, k) · w (l, k) + b l`: each block product reads, for row `p` of the block, row `p` of the
  rows block and the whole of the transposed weights, and the blocks tile the rows (the reference's last block on the
  1280 rows it has inside the array). No law of arithmetic is needed beyond re-indexing the contraction.
-/
import proofs.«138802_g2000102687045169_pallasbulk_887_2_alg».proof.Defs
import proofs.«138802_g2000102687045169_pallasbulk_887_2_alg».proof.Proof.Gen.Kernel
import proofs.«138802_g2000102687045169_pallasbulk_887_2_alg».proof.Proof.Gen.Kernel.Skeleton
import proofs.«138802_g2000102687045169_pallasbulk_887_2_alg».proof.Proof.Gen.Kernel.Launch
import proofs.«138802_g2000102687045169_pallasbulk_887_2_alg».proof.Proof.Gen.Kernel.Points
import proofs.«138802_g2000102687045169_pallasbulk_887_2_alg».proof.Proof.Gen.Kernel.Frame
import proofs.«138802_g2000102687045169_pallasbulk_887_2_alg».proof.Proof.Gen.KernelIdeal
import proofs.«138802_g2000102687045169_pallasbulk_887_2_alg».proof.Proof.Gen.KernelIdeal.Skeleton
import proofs.«138802_g2000102687045169_pallasbulk_887_2_alg».proof.Proof.Gen.KernelIdeal.Launch
import proofs.«138802_g2000102687045169_pallasbulk_887_2_alg».proof.Proof.Gen.KernelIdeal.Points
import proofs.«138802_g2000102687045169_pallasbulk_887_2_alg».proof.Proof.Gen.KernelIdeal.Frame
import proofs.«138802_g2000102687045169_pallasbulk_887_2_alg».proof.Proof.Gen.ReferenceIdeal
import proofs.«138802_g2000102687045169_pallasbulk_887_2_alg».proof.Proof.Gen.ReferenceIdeal.Skeleton
import proofs.«138802_g2000102687045169_pallasbulk_887_2_alg».proof.Proof.Gen.ReferenceIdeal.Launch
import proofs.«138802_g2000102687045169_pallasbulk_887_2_alg».proof.Proof.Gen.ReferenceIdeal.Points
import proofs.«138802_g2000102687045169_pallasbulk_887_2_alg».proof.Proof.Gen.ReferenceIdeal.Frame
import proofs.«138802_g2000102687045169_pallasbulk_887_2_alg».proof.Proof.Gen.Pre_finite_inputs
import Idealize.ShloMosaic.Adequacy
import Idealize.ShloMosaic.Init

import proofs.«138802_g2000102687045169_pallasbulk_887_2_alg».proof.Proof.Gen.KernelIdeal.Value
import proofs.«138802_g2000102687045169_pallasbulk_887_2_alg».proof.Proof.KernelLogits
import proofs.«138802_g2000102687045169_pallasbulk_887_2_alg».proof.Proof.RefFrame
import proofs.«138802_g2000102687045169_pallasbulk_887_2_alg».proof.Proof.RefLogits

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, read at the argument arrays. -/
theorem frame_ri : Cert.frame_ReferenceIdeal := fun m ρ _ =>
  Cert.ReferenceIdeal.Gen.frame_of m ρ (Cert.ReferenceIdeal.Head.dats m) (Cert.ReferenceIdeal.Head.A_eq m)
    (Cert.ReferenceIdeal.Head.run_main m ρ)

/-- Both runs end with the result array at the logits of the (agreeing) argument arrays. -/
theorem algebraic : Cert.algebraic_KernelIdeal_ReferenceIdeal := by
  intro m ρ m' ρ' _ hagree
  refine ⟨fun c => Cert.HeadMath.logits (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Head.final3 m c), (h c).2⟩)
      (Cert.KernelIdeal.Value.run_blocks (F := Ideal) m ρ)
  · refine (θ_run Cert.ReferenceIdeal.defs _ _).mono (fun r h c => ⟨?_, ?_, ?_, ?_⟩)
      (Cert.ReferenceIdeal.Head.run_main m' ρ')
    · refine (((h c).1 3).trans (Cert.ReferenceIdeal.Head.final3 m' c)).trans ?_
      rw [(hagree c).1, (hagree c).2.1, (hagree c).2.2]
    · exact ((h c).1 0).trans (((Cert.ReferenceIdeal.Head.dats m' 0 c).arrAt_in 0 rfl _).trans
        ((Cert.ReferenceIdeal.Head.A_eq m' c 0).trans (Cert.ReferenceIdeal.Gen.V_main_arg0 m' c)))
    · exact ((h c).2 Cert.ReferenceIdeal.main_arg1 (Pipeline.mem_restRefs_of Cert.ReferenceIdeal.main_arg1 (by decide) (by decide))).trans
        (Cert.ReferenceIdeal.Gen.V_main_arg1 m' c)
    · exact ((h c).2 Cert.ReferenceIdeal.main_arg2 (Pipeline.mem_restRefs_of Cert.ReferenceIdeal.main_arg2 (by decide) (by decide))).trans
        (Cert.ReferenceIdeal.Gen.V_main_arg2 m' c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
